-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32x32x512 : Shape := ⟨4, ![16, 32, 32, 512]⟩
abbrev S32x32x512 : Shape := ⟨3, ![32, 32, 512]⟩
abbrev S_ : Shape := ⟨0, ![]⟩

class Facts : Prop where
  bcast_S_S16x32x32x512 : S_.BroadcastsInDim S16x32x32x512 (![] : Fin 0 → Fin S16x32x32x512.rank)
  reducesTo_S16x32x32x512_S_d0_1_2_3 : S16x32x32x512.ReducesTo [0, 1, 2, 3] S_
  h_S_ : 0 < S_.numel
  bcast_S_S32x32x512 : S_.BroadcastsInDim S32x32x512 (![] : Fin 0 → Fin S32x32x512.rank)
  reducesTo_S32x32x512_S_d0_1_2 : S32x32x512.ReducesTo [0, 1, 2] S_

variable [Facts]

def fn {F : FTy → Type} [FloatOps F] (main_arg0 : FVec F S16x32x32x512 .f32) (main_arg1 : FVec F S16x32x32x512 .f32) (main_arg2 : FVec F S32x32x512 .f32) : IVec S_ 1 :=
  let main_v0 : FVec F S16x32x32x512 .f32 := Host.absf main_arg0
  let main_cst : FVec F S_ .f32 := constant S_ .f32 0x7F800000#32
  let main_v1 : FVec F S16x32x32x512 .f32 := broadcastInDim S16x32x32x512 ![] bcast_S_S16x32x32x512 main_cst
  let main_v2 : IVec S16x32x32x512 1 := cmpf .olt main_v0 main_v1
  let main_c : IVec S_ 1 := constantI S_ 1 1#1
  let main_v3 : IVec S_ 1 := (fun x v => Host.reduce IntOp.andi x v reducesTo_S16x32x32x512_S_d0_1_2_3 h_S_) main_v2 main_c
  let main_v4 : FVec F S16x32x32x512 .f32 := Host.absf main_arg1
  let main_cst_0 : FVec F S_ .f32 := constant S_ .f32 0x7F800000#32
  let main_v5 : FVec F S16x32x32x512 .f32 := broadcastInDim S16x32x32x512 ![] bcast_S_S16x32x32x512 main_cst_0
  let main_v6 : IVec S16x32x32x512 1 := cmpf .olt main_v4 main_v5
  let main_c_1 : IVec S_ 1 := constantI S_ 1 1#1
  let main_v7 : IVec S_ 1 := (fun x v => Host.reduce IntOp.andi x v reducesTo_S16x32x32x512_S_d0_1_2_3 h_S_) main_v6 main_c_1
  let main_v8 : IVec S_ 1 := andi main_v3 main_v7
  let main_v9 : FVec F S32x32x512 .f32 := Host.absf main_arg2
  let main_cst_2 : FVec F S_ .f32 := constant S_ .f32 0x7F800000#32
  let main_v10 : FVec F S32x32x512 .f32 := broadcastInDim S32x32x512 ![] bcast_S_S32x32x512 main_cst_2
  let main_v11 : IVec S32x32x512 1 := cmpf .olt main_v9 main_v10
  let main_c_3 : IVec S_ 1 := constantI S_ 1 1#1
  let main_v12 : IVec S_ 1 := (fun x v => Host.reduce IntOp.andi x v reducesTo_S32x32x512_S_d0_1_2 h_S_) main_v11 main_c_3
  let main_v13 : IVec S_ 1 := andi main_v8 main_v12
  main_v13
-- ==== Kernel.lean ====
abbrev S16x32x32x512 : Shape := ⟨4, ![16, 32, 32, 512]⟩
abbrev S32x32x512 : Shape := ⟨3, ![32, 32, 512]⟩
abbrev S16x1024x512 : Shape := ⟨3, ![16, 1024, 512]⟩
abbrev S1024x512 : Shape := ⟨2, ![1024, 512]⟩
abbrev S16x1024x1024 : Shape := ⟨3, ![16, 1024, 1024]⟩
abbrev S1x1024x512 : Shape := ⟨3, ![1, 1024, 512]⟩
abbrev S1x1024x1024 : Shape := ⟨3, ![1, 1024, 1024]⟩
abbrev S1024x1024 : Shape := ⟨2, ![1024, 1024]⟩
abbrev S16x32x32x32x32 : Shape := ⟨5, ![16, 32, 32, 32, 32]⟩

abbrev nBuf : Space → Nat
  | .hbm => 8
  | .vmem => 7
  | .smem => 0
  | _ => 0

abbrev bufTy : (tb : Table) → Fin (tcTables nBuf tb) → BufTy
  | .hbm, ⟨0, _⟩ => ⟨S16x32x32x512, .f32⟩
  | .hbm, ⟨1, _⟩ => ⟨S16x32x32x512, .f32⟩
  | .hbm, ⟨2, _⟩ => ⟨S32x32x512, .f32⟩
  | .hbm, ⟨3, _⟩ => ⟨S16x1024x512, .f32⟩
  | .hbm, ⟨4, _⟩ => ⟨S16x1024x512, .f32⟩
  | .hbm, ⟨5, _⟩ => ⟨S1024x512, .f32⟩
  | .hbm, ⟨6, _⟩ => ⟨S16x1024x1024, .f32⟩
  | .hbm, ⟨7, _⟩ => ⟨S16x32x32x32x32, .f32⟩
  | .local _ .vmem, ⟨0, _⟩ => ⟨S1x1024x512, .f32⟩
  | .local _ .vmem, ⟨1, _⟩ => ⟨S1x1024x512, .f32⟩
  | .local _ .vmem, ⟨2, _⟩ => ⟨S1x1024x512, .f32⟩
  | .local _ .vmem, ⟨3, _⟩ => ⟨S1x1024x512, .f32⟩
  | .local _ .vmem, ⟨4, _⟩ => ⟨S1024x512, .f32⟩
  | .local _ .vmem, ⟨5, _⟩ => ⟨S1x1024x1024, .f32⟩
  | .local _ .vmem, ⟨6, _⟩ => ⟨S1x1024x1024, .f32⟩
  | _, _ => ⟨S16x32x32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S16x32x32x512_S16x1024x512 : S16x32x32x512.ShapeCasts S16x1024x512
  shapeCasts_S32x32x512_S1024x512 : S32x32x512.ShapeCasts S1024x512
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  bitsLt_bf16_f32 : FTy.bits .bf16 < FTy.bits .f32
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S1024x1024_S1x1024x1024 : S1024x1024.ShapeCasts S1x1024x1024
  shapeCasts_S16x1024x1024_S16x32x32x32x32 : S16x1024x1024.ShapeCasts S16x32x32x32x32
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x512.size a ≤ S16x1024x512.size a
  hwx0_0 : ∀ i : grid0.Coords, EltTy.bits .f32 = 32 ∨ (Rect.block (s := S16x1024x512) S1x1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S16x1024x512.size a
  hwx0_1 : ∀ i : grid0.Coords, EltTy.bits .f32 = 32 ∨ (Rect.block (s := S16x1024x512) S1x1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S1024x512.size a
  hwx0_2 : ∀ i : grid0.Coords, EltTy.bits .f32 = 32 ∨ (Rect.block (s := S1024x512) S1024x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S16x1024x1024.size a
  hwx0_3 : ∀ i : grid0.Coords, EltTy.bits .f32 = 32 ∨ (Rect.block (s := S16x1024x1024) S1x1024x1024.size (cc0_transform_3 i) (hinb0_3 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_v0) S1x1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x32x32x512 : Shape := ⟨4, ![16, 32, 32, 512]⟩
abbrev S32x32x512 : Shape := ⟨3, ![32, 32, 512]⟩
abbrev S16x32x32x32x32 : Shape := ⟨5, ![16, 32, 32, 32, 32]⟩
abbrev S1x32x32x512 : Shape := ⟨4, ![1, 32, 32, 512]⟩

abbrev nBuf : Space → Nat
  | .hbm => 10
  | .vmem => 0
  | .smem => 0
  | _ => 0

abbrev bufTy : (tb : Table) → Fin (tcTables nBuf tb) → BufTy
  | .hbm, ⟨0, _⟩ => ⟨S16x32x32x512, .f32⟩
  | .hbm, ⟨1, _⟩ => ⟨S16x32x32x512, .f32⟩
  | .hbm, ⟨2, _⟩ => ⟨S32x32x512, .f32⟩
  | .hbm, ⟨3, _⟩ => ⟨S16x32x32x32x32, .f32⟩
  | .hbm, ⟨4, _⟩ => ⟨S1x32x32x512, .f32⟩
  | .hbm, ⟨5, _⟩ => ⟨S16x32x32x512, .f32⟩
  | .hbm, ⟨6, _⟩ => ⟨S16x32x32x512, .f32⟩
  | .hbm, ⟨7, _⟩ => ⟨S16x32x32x32x32, .f32⟩
  | .hbm, ⟨8, _⟩ => ⟨S16x32x32x32x32, .f32⟩
  | .hbm, ⟨9, _⟩ => ⟨S16x32x32x32x32, .f32⟩
  | _, _ => ⟨S16x32x32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]

class Facts₀ : Prop where
  bcast_S32x32x512_S1x32x32x512_1_2_3 : S32x32x512.BroadcastsInDim S1x32x32x512 (![1, 2, 3] : Fin 3 → Fin S1x32x32x512.rank)
  bcast_S1x32x32x512_S16x32x32x512_0_1_2_3 : S1x32x32x512.BroadcastsInDim S16x32x32x512 (![0, 1, 2, 3] : Fin 4 → Fin S16x32x32x512.rank)
  transposes_S16x32x32x32x32_S16x32x32x32x32_0_3_4_1_2 : S16x32x32x32x32.Transposes [0, 3, 4, 1, 2] S16x32x32x32x32
  dot_S16x32x32x512_S32x32x512_S16x32x32x32x32_3_2_012_01_n_n_wf : DotDims.WF S16x32x32x512 S32x32x512 S16x32x32x32x32 [3] [2] [0, 1, 2] [0, 1] [] []

variable [Facts₀]

def dot_S16x32x32x512_S32x32x512_S16x32x32x32x32_3_2_012_01_n_n : DotDims S16x32x32x512 S32x32x512 S16x32x32x32x32 where
  lhsContracting := [3]
  rhsContracting := [2]
  lhsNonContracting := [0, 1, 2]
  rhsNonContracting := [0, 1]
  lhsBatch := []
  rhsBatch := []
  wf := dot_S16x32x32x512_S32x32x512_S16x32x32x32x32_3_2_012_01_n_n_wf

class Facts : Prop extends Facts₀ where

variable [Facts]
-- ==== Proof.LibMatmulRowsAt.lean ====
/-
  A matrix product whose two operands are both contracted on their LAST axis, into a zero accumulator, read at one
  entry over the extended reals.

  For dimension numbers that contract the second axis of an [A × K] left operand with the second axis of a [B × K]
  right operand, with no batch axis — the left operand read at (row, k), the right at (column, k): the product of the
  left matrix with the TRANSPOSE of the right one — entry (p, q) is `∑ₖ l[p, k] · r[q, k]`. The four facts about
  where the dimension numbers read their operands are hypotheses, so that the lemma serves any printed record of this
  kind.
-/
import Idealize.ShloMosaic.PureOps.Ideal.Laws
import Idealize.ShloMosaic.Lib.ValueIdx

noncomputable section

namespace Idealize.ShloMosaic.MatmulRowsAt

open Idealize.ShloMosaic Idealize.ShloMosaic.ValueIdx

/-- Entry (p, q) of `l · rᵀ` accumulated into zero is the sum over the contracted axis of `l[p, k] · r[q, k]`, for
    dimension numbers `D` whose one contracted axis has extent `K` (`hr`, `hs`) and which read the left operand at
    (row, k) (`hl0`, `hl1`) and the right at (column, k) (`hr0`, `hr1`). -/
theorem matmul_rows_zero_at {A K B : Nat} {φ₁ φ₂ : FTy}
    (D : DotDims (⟨2, ![A, K]⟩ : Shape) (⟨2, ![B, K]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (i 1).val)
    (hr1 : ∀ (i : (⟨2, ![A, B]⟩ : Shape).Idx) (q : D.contr.Idx), (D.rhsIdx i q 1).val = (q ⟨0, by omega⟩).val)
    (prec : Option ContractPrecision) (l : FVec Ideal (⟨2, ![A, K]⟩ : Shape) φ₁) (r : FVec Ideal (⟨2, ![B, K]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 q k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 q k := funext fun a => Fin.ext (by
    match a with
    | ⟨0, _⟩ => exact hr0 _ _
    | ⟨1, _⟩ => exact (hr1 _ _).trans hk)
  rw [el, er]

end Idealize.ShloMosaic.MatmulRowsAt

end
-- ==== Proof.BlockLogits.lean ====
/-
  What the kernel body computes from the three blocks it loads, entry by entry.

  At one grid point the body holds a [1 × 1024 × 512] block of queries, a [1 × 1024 × 512] block of keys and the whole
  [1024 × 512] embedding. It drops the blocks' unit axis, forms keys + embedding, changes float formats (the identity
  on the extended reals), multiplies queries by the embedding's transpose and the embedding by the transpose of
  keys + embedding, each into a zero accumulator, adds the two products and puts the unit axis back. So entry
  (0, p, n) of what it stores is

      ∑_d Q[0, p, d] · E[n, d]  +  ∑_d E[p, d] · (K[0, n, d] + E[n, d]).
-/
import proofs.«162251_j66151086293478_1_alg».proof.Proof.Gen.KernelIdeal.Skeleton
import proofs.«162251_j66151086293478_1_alg».proof.Proof.LibMatmulRowsAt
import Idealize.ShloMosaic.Lib.Pipeline.Value

noncomputable section

namespace Cert.KernelIdeal.Block

open Idealize.ShloMosaic Idealize.ShloMosaic.ValueIdx Cert.KernelIdeal Cert.KernelIdeal.Gen

/-! ## Where the body's matrix product reads its operands -/

theorem lhs_row (i : S1024x1024.Idx) (q : dot_S1024x512_S1024x512_S1024x1024_1_1_0_0_n_n.contr.Idx) :
    (dot_S1024x512_S1024x512_S1024x1024_1_1_0_0_n_n.lhsIdx i q 0).val = (i 0).val := by
  unfold DotDims.lhsIdx
  rw [dif_neg (show ¬(0 : Fin S1024x512.rank) ∈ dot_S1024x512_S1024x512_S1024x1024_1_1_0_0_n_n.lhsBatch by decide),
    dif_pos (show (0 : Fin S1024x512.rank) ∈ dot_S1024x512_S1024x512_S1024x1024_1_1_0_0_n_n.lhsNonContracting by decide)]
  rfl

theorem lhs_feature (i : S1024x1024.Idx) (q : dot_S1024x512_S1024x512_S1024x1024_1_1_0_0_n_n.contr.Idx) :
    (dot_S1024x512_S1024x512_S1024x1024_1_1_0_0_n_n.lhsIdx i q 1).val = (q ⟨0, by decide⟩).val :=
  dot_S1024x512_S1024x512_S1024x1024_1_1_0_0_n_n.lhsIdx_val_of_single rfl i q

theorem rhs_row (i : S1024x1024.Idx) (q : dot_S1024x512_S1024x512_S1024x1024_1_1_0_0_n_n.contr.Idx) :
    (dot_S1024x512_S1024x512_S1024x1024_1_1_0_0_n_n.rhsIdx i q 0).val = (i 1).val := by
  unfold DotDims.rhsIdx
  rw [dif_neg (show ¬(0 : Fin S1024x512.rank) ∈ dot_S1024x512_S1024x512_S1024x1024_1_1_0_0_n_n.rhsBatch by decide),
    dif_pos (show (0 : Fin S1024x512.rank) ∈ dot_S1024x512_S1024x512_S1024x1024_1_1_0_0_n_n.rhsNonContracting by decide)]
  rfl

theorem rhs_feature (i : S1024x1024.Idx) (q : dot_S1024x512_S1024x512_S1024x1024_1_1_0_0_n_n.contr.Idx) :
    (dot_S1024x512_S1024x512_S1024x1024_1_1_0_0_n_n.rhsIdx i q 1).val = (q ⟨0, by decide⟩).val :=
  dot_S1024x512_S1024x512_S1024x1024_1_1_0_0_n_n.rhsIdx_val_of_single rfl i q

/-- The body's product of a [1024 × 512] matrix with the transpose of another, into zero, at entry (p, n). -/
theorem product_at {φ₁ φ₂ : FTy} (l : FVec Ideal S1024x512 φ₁) (r : FVec Ideal S1024x512 φ₂) (p n : Fin 1024) :
    FloatOps.matmul dot_S1024x512_S1024x512_S1024x1024_1_1_0_0_n_n none l r
        (constant (F := Ideal) S1024x1024 .f32 0x00000000#32) (ix2 p n)
      = ∑ d : Fin 512, l (ix2 p d) * r (ix2 n d) :=
  MatmulRowsAt.matmul_rows_zero_at dot_S1024x512_S1024x512_S1024x1024_1_1_0_0_n_n rfl rfl
    lhs_row lhs_feature rhs_row rhs_feature none l r p n

/-! ## The unit axis of a block -/

/-- A [1 × 1024 × 512] block with its unit axis dropped holds at (p, d) what the block held at (0, p, d). -/
theorem drop_unit_at (x : FVec Ideal S1x1024x512 .f32) (h : S1x1024x512.ShapeCasts S1024x512) (p : Fin 1024) (d : Fin 512) :
    shapeCast S1024x512 x h (ix2 p d) = x (ix3 0 p d) :=
  shapeCast_apply x h _ _ (by
    rw [Shape.rowMajor_val_three, Shape.rowMajor_val_two]
    show (0 * 1024 + p.val) * 512 + d.val = p.val * 512 + d.val
    omega)

/-- A [1024 × 1024] matrix given a leading unit axis holds at (0, p, n) what the matrix held at (p, n). -/
theorem add_unit_at (x : FVec Ideal S1024x1024 .f32) (h : S1024x1024.ShapeCasts S1x1024x1024) (p n : Fin 1024) :
    shapeCast S1x1024x1024 x h (ix3 0 p n) = x (ix2 p n) :=
  shapeCast_apply x h _ _ (by
    rw [Shape.rowMajor_val_two, Shape.rowMajor_val_three]
    show p.val * 1024 + n.val = (0 * 1024 + p.val) * 1024 + n.val
    omega)

/-! ## The stored value -/

/-- Entry (0, p, n) of the value the body stores, from the query block `xq`, the embedding `xe` and the key block `xk`. -/
theorem stored_at (xq : Vec Ideal S1x1024x512 .f32) (xe : Vec Ideal S1024x512 .f32) (xk : Vec Ideal S1x1024x512 .f32)
    (p n : Fin 1024) :
    k0_pay1 (F := Ideal) xq xe xk (ix3 0 p n)
      = (∑ d : Fin 512, xq (ix3 0 p d) * xe (ix2 n d))
        + ∑ d : Fin 512, xe (ix2 p d) * (xk (ix3 0 n d) + xe (ix2 n d)) := by
  unfold k0_pay1
  refine (add_unit_at _ _ p n).trans ?_
  refine (addf_apply _ _ _).trans ?_
  refine (congrArg₂ (· + ·) (product_at _ _ p n) (product_at _ _ p n)).trans ?_
  simp only [truncf_apply, addf_apply, drop_unit_at, shapeCast_self]

end Cert.KernelIdeal.Block

end
-- ==== Proof.Logits.lean ====
/-
  The mathematics of the certificate, with no program in sight.

  Positions on a 32 × 32 grid carry a 512-long embedding `e[i, j, ·]`; a batch of 16 queries `q[b, i, j, ·]` and keys
  `k[b, i, j, ·]` live on the same grid. The logit between a query position (i, j) and a key position (i', j') of batch
  `b` is content-to-position plus position-to-(content + position):

      logits[b, i, j, i', j'] = ∑_d q[b, i, j, d] · e[i', j', d]  +  ∑_d e[i, j, d] · (k[b, i', j', d] + e[i', j', d]).

  The same numbers laid out FLAT — the grid's 1024 positions numbered row by row, position (i, j) being `32·i + j` — are
  `flatLogits[b, m, n] = ∑_d Q[b, m, d] · E[n, d] + ∑_d E[m, d] · (K[b, n, d] + E[n, d])`: one [1024 × 512]·[1024 × 512]ᵀ
  product per term. `logits_of_flat` says the two agree under the row-major re-reading of the arrays.
-/
import Idealize.ShloMosaic.PureOps.Ideal.Laws
import Idealize.ShloMosaic.Lib.ValueIdx
import Idealize.ShloMosaic.Lib.Pipeline.Value

noncomputable section

namespace Cert.Logits

open Idealize.ShloMosaic Idealize.ShloMosaic.ValueIdx

/-- Queries and keys: batch × row × column × feature. -/
abbrev Sgrid : Shape := ⟨4, ![16, 32, 32, 512]⟩
/-- The positional embedding: row × column × feature. -/
abbrev Semb : Shape := ⟨3, ![32, 32, 512]⟩
/-- The logits: batch × query row × query column × key row × key column. -/
abbrev Slogits : Shape := ⟨5, ![16, 32, 32, 32, 32]⟩
/-- Queries and keys with the grid flattened: batch × position × feature. -/
abbrev SgridFlat : Shape := ⟨3, ![16, 1024, 512]⟩
/-- The embedding with the grid flattened: position × feature. -/
abbrev SembFlat : Shape := ⟨2, ![1024, 512]⟩
/-- The logits with both grids flattened: batch × query position × key position. -/
abbrev SlogitsFlat : Shape := ⟨3, ![16, 1024, 1024]⟩

/-- The logits over the grid's own axes. -/
def logits (q k : FVec Ideal Sgrid .f32) (e : FVec Ideal Semb .f32) : FVec Ideal Slogits .f32 := fun i =>
  (∑ d : Fin 512, q (ix4 (i 0) (i 1) (i 2) d) * e (ix3 (i 3) (i 4) d))
    + ∑ d : Fin 512, e (ix3 (i 1) (i 2) d) * (k (ix4 (i 0) (i 3) (i 4) d) + e (ix3 (i 3) (i 4) d))

/-- The logits over flattened positions. -/
def flatLogits (Q K : FVec Ideal SgridFlat .f32) (E : FVec Ideal SembFlat .f32) : FVec Ideal SlogitsFlat .f32 := fun i =>
  (∑ d : Fin 512, Q (ix3 (i 0) (i 1) d) * E (ix2 (i 2) d))
    + ∑ d : Fin 512, E (ix2 (i 1) d) * (K (ix3 (i 0) (i 2) d) + E (ix2 (i 2) d))

/-- Grid position (i, j) in the row-by-row numbering of the 1024 positions. -/
abbrev pos (i j : Fin 32) : Fin 1024 := ⟨32 * i.val + j.val, by omega⟩

/-- A batch × grid × feature array re-read flat holds at (b, 32·i + j, d) what it held at (b, i, j, d). -/
theorem flat_grid_apply (x : FVec Ideal Sgrid .f32) (h : Sgrid.ShapeCasts SgridFlat) (b : Fin 16) (i j : Fin 32) (d : Fin 512) :
    shapeCast SgridFlat x h (ix3 b (pos i j) d) = x (ix4 b i j d) :=
  shapeCast_apply x h _ _ (by
    rw [Shape.rowMajor_val_four, Shape.rowMajor_val_three]
    show ((b.val * 32 + i.val) * 32 + j.val) * 512 + d.val = (b.val * 1024 + (32 * i.val + j.val)) * 512 + d.val
    omega)

/-- The embedding re-read flat holds at (32·i + j, d) what it held at (i, j, d). -/
theorem flat_emb_apply (x : FVec Ideal Semb .f32) (h : Semb.ShapeCasts SembFlat) (i j : Fin 32) (d : Fin 512) :
    shapeCast SembFlat x h (ix2 (pos i j) d) = x (ix3 i j d) :=
  shapeCast_apply x h _ _ (by
    rw [Shape.rowMajor_val_three, Shape.rowMajor_val_two]
    show (i.val * 32 + j.val) * 512 + d.val = (32 * i.val + j.val) * 512 + d.val
    omega)

/-- The flat logits of the flat re-readings, re-read over the grid's axes, are the logits: entry (b, i, j, i', j') of
    the five-axis array sits at (b, 32·i + j, 32·i' + j') of the three-axis one, and there each factor of each product
    is the original array's entry at the unflattened position. -/
theorem logits_of_flat (q k : FVec Ideal Sgrid .f32) (e : FVec Ideal Semb .f32)
    (hg : Sgrid.ShapeCasts SgridFlat) (he : Semb.ShapeCasts SembFlat) (hl : SlogitsFlat.ShapeCasts Slogits) :
    shapeCast Slogits (flatLogits (shapeCast SgridFlat q hg) (shapeCast SgridFlat k hg) (shapeCast SembFlat e he)) hl
      = logits q k e := by
  funext i
  obtain ⟨b, i1, j1, i2, j2, rfl⟩ : ∃ (b : Fin 16) (i1 j1 i2 j2 : Fin 32), i = ix5 b i1 j1 i2 j2 :=
    ⟨i 0, i 1, i 2, i 3, i 4, eq_ix5 i⟩
  refine (shapeCast_apply _ hl (ix5 b i1 j1 i2 j2) (ix3 b (pos i1 j1) (pos i2 j2)) (by
    rw [Shape.rowMajor_val_three, Shape.rowMajor_val_five]
    show (b.val * 1024 + (32 * i1.val + j1.val)) * 1024 + (32 * i2.val + j2.val)
      = (((b.val * 32 + i1.val) * 32 + j1.val) * 32 + i2.val) * 32 + j2.val
    omega)).trans ?_
  show (∑ d : Fin 512, shapeCast SgridFlat q hg (ix3 b (pos i1 j1) d) * shapeCast SembFlat e he (ix2 (pos i2 j2) d))
      + (∑ d : Fin 512, shapeCast SembFlat e he (ix2 (pos i1 j1) d)
          * (shapeCast SgridFlat k hg (ix3 b (pos i2 j2) d) + shapeCast SembFlat e he (ix2 (pos i2 j2) d)))
    = (∑ d : Fin 512, q (ix4 b i1 j1 d) * e (ix3 i2 j2 d))
      + ∑ d : Fin 512, e (ix3 i1 j1 d) * (k (ix4 b i2 j2 d) + e (ix3 i2 j2 d))
  simp only [flat_grid_apply, flat_emb_apply]

end Cert.Logits

end
-- ==== Proof.RegionArray.lean ====
/-
  The array the kernel region leaves behind.

  The region runs one grid point per batch entry. Point `t` stages batch `t`'s [1 × 1024 × 512] block of the flat queries,
  the same block of the flat keys and the whole flat embedding, and writes back a [1 × 1024 × 1024] block at batch `t` of
  the flat logits array. By `Block.stored_at` that block is, entry by entry, `Logits.flatLogits` of the three flat
  arrays read at (t, p, n); the sixteen blocks tile the array (index (b, p, n) lies in point `b`'s block), so after the
  region the array IS `flatLogits` of the arrays the region found.
-/
import proofs.«162251_j66151086293478_1_alg».proof.Proof.Gen.KernelIdeal.Frame
import proofs.«162251_j66151086293478_1_alg».proof.Proof.BlockLogits
import proofs.«162251_j66151086293478_1_alg».proof.Proof.Logits
import Idealize.ShloMosaic.Lib.Pipeline.Value

noncomputable section

namespace Cert.KernelIdeal.Region

open Idealize.ShloMosaic Idealize.ShloMosaic.TcCoe Idealize.ShloMosaic.ValueIdx Idealize.SL.Sem
open Idealize.ShloMosaic.Pipeline (Dat)
open Cert.KernelIdeal Cert.KernelIdeal.Gen Cert.Logits

variable (m : (ℓ : Loc nD τ sig) → Buf (Elt Ideal) ℓ)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The grid has sixteen points; point `t` is batch entry `t`. -/
abbrev batchOf (t : Fin cfg0.N) : Fin 16 := ⟨t.val, Nat.lt_of_lt_of_eq t.isLt N_0⟩

/-- The printed index maps, decided over the grid: the query, key and logits windows sit at block (t, 0, 0), the embedding's
    at block (0, 0). -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-! ## The staged blocks as entries of the arrays the region finds -/

/-- The query block at point `t` is batch `t` of the flat queries. -/
theorem query_block_at (c : Dev nD) (t : Fin cfg0.N) (p : Fin 1024) (d : Fin 512) :
    (iblk m c 0 t : Vec Ideal S1x1024x512 .f32) (ix3 0 p d)
      = (V m c main_v0 : FVec Ideal S16x1024x512 .f32) (ix3 (batchOf t) p d) := by
  obtain ⟨e0, e1, e2, -⟩ := block_indices t
  unfold iblk
  rw [View.read_apply]
  show V m c main_v0 _ = V m c main_v0 _
  congr 1
  funext a
  apply Fin.ext
  match a with
  | ⟨0, _⟩ => show win0_0.index t (0 : Fin 3) * 1 + 1 * (0 : Fin 1).val = t.val; rw [e0]; simp
  | ⟨1, _⟩ => show win0_0.index t (1 : Fin 3) * 1024 + 1 * p.val = p.val; omega
  | ⟨2, _⟩ => show win0_0.index t (2 : Fin 3) * 512 + 1 * d.val = d.val; omega

/-- The key block at point `t` is batch `t` of the flat keys. -/
theorem key_block_at (c : Dev nD) (t : Fin cfg0.N) (p : Fin 1024) (d : Fin 512) :
    (iblk m c 1 t : Vec Ideal S1x1024x512 .f32) (ix3 0 p d)
      = (V m c main_v1 : FVec Ideal S16x1024x512 .f32) (ix3 (batchOf t) p d) := by
  obtain ⟨-, -, -, e0, e1, e2, -⟩ := block_indices t
  unfold iblk
  rw [View.read_apply]
  show V m c main_v1 _ = V m c main_v1 _
  congr 1
  funext a
  apply Fin.ext
  match a with
  | ⟨0, _⟩ => show win0_1.index t (0 : Fin 3) * 1 + 1 * (0 : Fin 1).val = t.val; rw [e0]; simp
  | ⟨1, _⟩ => show win0_1.index t (1 : Fin 3) * 1024 + 1 * p.val = p.val; omega
  | ⟨2, _⟩ => show win0_1.index t (2 : Fin 3) * 512 + 1 * d.val = d.val; omega

/-- The embedding's one block is the whole flat embedding, at every point. -/
theorem emb_block_eq (c : Dev nD) (t : Fin cfg0.N) :
    (iblk m c 2 t : Vec Ideal S1024x512 .f32) = (V m c main_v2 : FVec Ideal S1024x512 .f32) := by
  obtain ⟨-, -, -, -, -, -, e0, e1, -⟩ := block_indices t
  funext y
  unfold iblk
  rw [View.read_apply]
  show V m c main_v2 _ = V m c main_v2 _
  congr 1
  funext a
  apply Fin.ext
  match a with
  | ⟨0, _⟩ => show win0_2.index t (0 : Fin 2) * 1024 + 1 * (y 0).val = (y 0).val; omega
  | ⟨1, _⟩ => show win0_2.index t (1 : Fin 2) * 512 + 1 * (y 1).val = (y 1).val; omega

/-! ## What a point writes back -/

/-- The value the body stores from blocks that are batch `b` of flat arrays `Q`, `K` and the whole flat embedding `E`,
    read at a block index `y`, is the flat logits at the array index with batch `b` and `y`'s two positions. -/
theorem stored_is_flatLogits (xq xk : Vec Ideal S1x1024x512 .f32) (xe : Vec Ideal S1024x512 .f32)
    (Q K : FVec Ideal S16x1024x512 .f32) (E : FVec Ideal S1024x512 .f32) (b : Fin 16)
    (hq : ∀ (p : Fin 1024) (d : Fin 512), xq (ix3 0 p d) = Q (ix3 b p d))
    (hk : ∀ (p : Fin 1024) (d : Fin 512), xk (ix3 0 p d) = K (ix3 b p d)) (he : xe = E)
    (y : S1x1024x1024.Idx) (i : S16x1024x1024.Idx)
    (h0 : (i 0).val = b.val) (h1 : (i 1).val = (y 1).val) (h2 : (i 2).val = (y 2).val) :
    k0_pay1 (F := Ideal) xq xe xk y = flatLogits Q K E i := by
  obtain ⟨z, p, n, rfl⟩ : ∃ (z : Fin 1) (p n : Fin 1024), y = ix3 z p n := ⟨y 0, y 1, y 2, eq_ix3 y⟩
  obtain rfl : z = 0 := Subsingleton.elim _ _
  have hi : i = ix3 b p n := funext fun a => Fin.ext (by
    match a with
    | ⟨0, _⟩ => exact h0
    | ⟨1, _⟩ => exact h1
    | ⟨2, _⟩ => exact h2)
  subst hi he
  rw [Block.stored_at]
  show _ = (∑ d : Fin 512, Q (ix3 b p d) * xe (ix2 n d)) + ∑ d : Fin 512, xe (ix2 p d) * (K (ix3 b n d) + xe (ix2 n d))
  simp only [hq, hk]

/-- WHAT POINT `t` WRITES BACK is block `t` of the flat logits of the arrays the region finds. -/
theorem flushed_eq (c : Dev nD) (t : Fin cfg0.N) :
    (dats m 0 c).flushed 3 t
      = ((cfg0.win 3).blk t).view.read (Elt Ideal) (flatLogits (V m c main_v0) (V m c main_v1) (V m c main_v2)) := by
  show (cfg0.win 3).cut (grid0.coords t) ((dats m 0 c).after 3 t) = _
  rw [after0_3]
  unfold out0_3
  rw [View.canon_unit_zero zeros3]
  simp only [View.ld_unit_zero (S := S1x1024x512) zeros3, View.ld_unit_zero (S := S1024x512) zeros2]
  obtain ⟨-, -, -, -, -, -, -, -, e0, e1, e2⟩ := block_indices t
  funext j
  refine stored_is_flatLogits _ _ _ (V m c main_v0) (V m c main_v1) (V m c main_v2) (batchOf t)
    (query_block_at m c t) (key_block_at m c t) (emb_block_eq m c t) j _ ?_ ?_ ?_
  · show win0_3.index t (0 : Fin 3) * 1 + 1 * (j 0).val = t.val
    have hj : (j 0).val < 1 := (j 0).isLt
    omega
  · show win0_3.index t (1 : Fin 3) * 1024 + 1 * (j 1).val = (j 1).val
    omega
  · show win0_3.index t (2 : Fin 3) * 1024 + 1 * (j 2).val = (j 2).val
    omega

/-! ## The blocks tile the array -/

/-- An index of the flat logits array is in point `t`'s block iff each coordinate is in the block's range on its axis. -/
theorem mem_block (t : Fin cfg0.N) (i : S16x1024x1024.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v3).slice (win0_3.rect t)).set ↔ _
  rw [View.set_slice_whole, Rect.mem_set_unit]
  exact Iff.rfl

/-- Index (b, p, n) lies in the block of point `b`, which is written back. -/
theorem covered (i : S16x1024x1024.Idx) :
    ∃ t : Fin cfg0.N, (cfg0.win 3).flush t = true ∧ i ∈ ((cfg0.win 3).blk t).view.set := by
  have hi0 : (i 0).val < 16 := (i 0).isLt
  have hi1 : (i 1).val < 1024 := (i 1).isLt
  have hi2 : (i 2).val < 1024 := (i 2).isLt
  have hN : cfg0.N = 16 := N_0
  obtain ⟨t, ht⟩ : ∃ t : Fin cfg0.N, t.val = (i 0).val := ⟨⟨(i 0).val, by rw [hN]; exact hi0⟩, rfl⟩
  obtain ⟨-, -, -, -, -, -, -, -, e0, e1, e2⟩ := block_indices t
  refine ⟨t, flush0_3 t, ?_⟩
  rw [mem_block]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 1024 ≤ (i 1).val ∧ (i 1).val < win0_3.index t (1 : Fin 3) * 1024 + 1024
    omega
  | ⟨2, _⟩ =>
    show win0_3.index t (2 : Fin 3) * 1024 ≤ (i 2).val ∧ (i 2).val < win0_3.index t (2 : Fin 3) * 1024 + 1024
    omega

/-- THE ARRAY AFTER THE REGION: the flat logits of the flat queries, keys and embedding the region found. -/
theorem array_after (c : Dev nD) :
    (dats m 0 c).arrAt 3 cfg0.N = flatLogits (V m c main_v0) (V m c main_v1) (V m c main_v2) :=
  (dats m 0 c).arrAt_eq_of_cover 3 _ (fun t _ => flushed_eq m c t) covered

end Cert.KernelIdeal.Region

end
-- ==== Proof.KernelRun.lean ====
/-
  The kernel program's run, read as a value.

  Around the region the program only re-reads arrays row-major: the queries and keys [16 × 32 × 32 × 512] as
  [16 × 1024 × 512], the embedding [32 × 32 × 512] as [1024 × 512] before it, and after it the region's
  [16 × 1024 × 1024] array as the [16 × 32 × 32 × 32 × 32] result. The region leaves `Logits.flatLogits` of the three flat
  arrays (`Region.array_after`), and the flat logits of flat re-readings, re-read over the grid's axes, are
  `Logits.logits` of the arguments (`Logits.logits_of_flat`).
-/
import proofs.«162251_j66151086293478_1_alg».proof.Proof.RegionArray
import Idealize.ShloMosaic.Lib.StableHlo.Run

noncomputable section

namespace Cert.KernelIdeal.Run

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen Cert.Logits

variable (m : (ℓ : Loc nD τ sig) → Buf (Elt Ideal) ℓ) (ρ : Dev nD → PrngReg)

/-! ## The arrays the region finds -/

/-- The flat queries are the first argument re-read row-major. -/
theorem flat_queries (c : Dev nD) : (V m c main_v0 : FVec Ideal S16x1024x512 .f32)
    = shapeCast S16x1024x512 (m ((c : Thread nD τ).loc main_arg0)) shapeCasts_S16x32x32x512_S16x1024x512 := by
  show StableHlo.after hostOps0 (fun b => m (c, b)) (Proc.devRef .tc main_v0) = _
  after_results
  rfl

/-- The flat keys are the second argument re-read row-major. -/
theorem flat_keys (c : Dev nD) : (V m c main_v1 : FVec Ideal S16x1024x512 .f32)
    = shapeCast S16x1024x512 (m ((c : Thread nD τ).loc main_arg1)) shapeCasts_S16x32x32x512_S16x1024x512 := by
  show StableHlo.after hostOps0 (fun b => m (c, b)) (Proc.devRef .tc main_v1) = _
  after_results
  rfl

/-- The flat embedding is the third argument re-read row-major. -/
theorem flat_embedding (c : Dev nD) : (V m c main_v2 : FVec Ideal S1024x512 .f32)
    = shapeCast S1024x512 (m ((c : Thread nD τ).loc main_arg2)) shapeCasts_S32x32x512_S1024x512 := by
  show StableHlo.after hostOps0 (fun b => m (c, b)) (Proc.devRef .tc main_v2) = _
  after_results
  rfl

/-! ## The result after the host line that follows the region -/

/-- The program's result: the region's array re-read over the grid's axes, which is the logits of the arguments. -/
theorem result_eq (c : Dev nD) :
    Pipeline.afterTail₀ cfgs (dats m) 0 (V0 m) [hostOps1] c main_v4
      = logits (m ((c : Thread nD τ).loc main_arg0)) (m ((c : Thread nD τ).loc main_arg1)) (m ((c : Thread nD τ).loc main_arg2)) := by
  unfold Pipeline.afterTail₀
  show StableHlo.after hostOps1 _ (Proc.devRef .tc main_v4) = _
  after_results
  have harr : Pipeline.withArrays (cfgs 0).spec c (V0 m c) (fun w => (dats m 0 c).arrAt w (cfgs 0).N) (Proc.devRef .tc main_v3)
      = flatLogits (V m c main_v0) (V m c main_v1) (V m c main_v2) :=
    (Pipeline.withArrays_arr spec0 launch0.win.arr_inj c _ _ 3).trans (Region.array_after m c)
  funext i
  show shapeCast S16x32x32x32x32
      (Pipeline.withArrays (cfgs 0).spec c (V0 m c) (fun w => (dats m 0 c).arrAt w (cfgs 0).N) (Proc.devRef .tc main_v3))
      shapeCasts_S16x1024x1024_S16x32x32x32x32 i = _
  rw [harr, flat_queries, flat_keys, flat_embedding]
  exact congrFun (logits_of_flat _ _ _ _ _ _) i

/-! ## The run -/

/-- Every weakly fair execution of the kernel program terminates with its result at the logits of its arguments and the
    arguments unchanged: the frame run, its result read through `result_eq`. -/
theorem run : θ_run defs (onTc (τ := τ) (main (F := Ideal))) ⟨m, fun _ => 0, ρ⟩ fun r => ∀ c : Dev nD,
      r.2.mem ((c.tc : Thread nD τ).loc main_v4)
        = logits (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v4 (Pipeline.mem_restRefs_of main_v4 (by decide) (by decide))).trans (result_eq m c),
        ((h c).2 main_arg0 (Pipeline.mem_restRefs_of main_arg0 (by decide) (by decide))).trans (W_main_arg0 m (dats m) c),
        ((h c).2 main_arg1 (Pipeline.mem_restRefs_of main_arg1 (by decide) (by decide))).trans (W_main_arg1 m (dats m) c),
        ((h c).2 main_arg2 (Pipeline.mem_restRefs_of main_arg2 (by decide) (by decide))).trans (W_main_arg2 m (dats m) c)⟩)
    (run_main m ρ)

end Cert.KernelIdeal.Run

end
-- ==== Proof.RefLogits.lean ====
/-
  The reference computes the logits.

  Its first contraction is `∑_d q[b, i, j, d] · e[i', j', d]` as it stands. Its second is laid out key-side first:
  `∑_d (k[b, i', j', d] + e[i', j', d]) · e[i, j, d]` at (b, i', j', i, j), then transposed so that the query's axes come
  before the key's. Read at (b, i, j, i', j') the transposed array is that sum, and exchanging the two factors of every
  product — multiplication of extended reals is commutative — gives the second term of `Logits.logits`.
-/
import proofs.«162251_j66151086293478_1_alg».proof.Proof.Gen.ReferenceIdeal.Read
import proofs.«162251_j66151086293478_1_alg».proof.Proof.Logits

noncomputable section

namespace Cert.ReferenceIdeal.RefLogits

open Idealize.ShloMosaic Idealize.ShloMosaic.ValueIdx Cert.ReferenceIdeal Cert.ReferenceIdeal.Read Cert.Logits

/-- Where the first contraction reads the queries at logit index (b, i, j, i', j'). -/
theorem q_at (b : Fin 16) (i1 j1 i2 j2 : Fin 32) (d : Fin 512) :
    lidx_main_v0 (ix5 b i1 j1 i2 j2) d = ix4 b i1 j1 d :=
  funext fun a => Fin.ext (by match a with | ⟨0, _⟩ => rfl | ⟨1, _⟩ => rfl | ⟨2, _⟩ => rfl | ⟨3, _⟩ => rfl)

/-- Where it reads the embedding: the key's position. -/
theorem e_key_at (b : Fin 16) (i1 j1 i2 j2 : Fin 32) (d : Fin 512) :
    ridx_main_v0 (ix5 b i1 j1 i2 j2) d = ix3 i2 j2 d :=
  funext fun a => Fin.ext (by match a with | ⟨0, _⟩ => rfl | ⟨1, _⟩ => rfl | ⟨2, _⟩ => rfl)

/-- Where the second contraction, read through the transposition, reads the keys. -/
theorem k_at (b : Fin 16) (i1 j1 i2 j2 : Fin 32) (d : Fin 512) :
    lidx_main_v4 (idx_main_v5 (ix5 b i1 j1 i2 j2)) d = ix4 b i2 j2 d :=
  funext fun a => Fin.ext (by match a with | ⟨0, _⟩ => rfl | ⟨1, _⟩ => rfl | ⟨2, _⟩ => rfl | ⟨3, _⟩ => rfl)

/-- The embedding broadcast over the batch, read at a key's entry, is the embedding at the key's position. -/
theorem e_bcast_at (b : Fin 16) (i2 j2 : Fin 32) (d : Fin 512) :
    idx_main_v1 (idx_main_v2 (ix4 b i2 j2 d)) = ix3 i2 j2 d :=
  funext fun a => Fin.ext (by match a with | ⟨0, _⟩ => rfl | ⟨1, _⟩ => rfl | ⟨2, _⟩ => rfl)

/-- Where the second contraction, read through the transposition, reads the embedding: the query's position. -/
theorem e_query_at (b : Fin 16) (i1 j1 i2 j2 : Fin 32) (d : Fin 512) :
    ridx_main_v4 (idx_main_v5 (ix5 b i1 j1 i2 j2)) d = ix3 i1 j1 d :=
  funext fun a => Fin.ext (by match a with | ⟨0, _⟩ => rfl | ⟨1, _⟩ => rfl | ⟨2, _⟩ => rfl)

/-- The reference's result, as a function of its three arguments, is `Logits.logits` of them. -/
theorem result_eq (q k : FVec Ideal Sgrid .f32) (e : FVec Ideal Semb .f32) :
    val_main_v6 (F := Ideal) q k e = logits q k e := by
  funext i
  obtain ⟨b, i1, j1, i2, j2, rfl⟩ : ∃ (b : Fin 16) (i1 j1 i2 j2 : Fin 32), i = ix5 b i1 j1 i2 j2 :=
    ⟨i 0, i 1, i 2, i 3, i 4, eq_ix5 i⟩
  rw [val_main_v6_apply, val_main_v0_apply, val_main_v5_apply, val_main_v4_apply]
  simp only [val_main_v3_apply, val_main_v2_apply, val_main_v1_apply, q_at, e_key_at, k_at, e_bcast_at, e_query_at,
    Ideal.addf_def]
  show _ = (∑ d : Fin 512, q (ix4 b i1 j1 d) * e (ix3 i2 j2 d))
      + ∑ d : Fin 512, e (ix3 i1 j1 d) * (k (ix4 b i2 j2 d) + e (ix3 i2 j2 d))
  congr 1
  exact Finset.sum_congr rfl fun d _ => mul_comm _ _

end Cert.ReferenceIdeal.RefLogits

end
-- ==== Proof.lean ====
/- The proof of `Cert.Claim` (Defs.lean): frame_Kernel ∧ frame_KernelIdeal ∧ frame_ReferenceIdeal ∧
   preserves_Kernel_KernelIdeal ∧ algebraic_KernelIdeal_ReferenceIdeal.

   Both programs compute, for a batch of queries `q` and keys `k` on a 32 × 32 grid of positions with embedding `e`,

       logits[b, i, j, i', j'] = ∑_d q[b, i, j, d] · e[i', j', d]  +  ∑_d e[i, j, d] · (k[b, i', j', d] + e[i', j', d])

   (`Logits.logits`). The kernel flattens each grid to 1024 positions, and per batch entry multiplies the [1024 × 512]
   queries by the embedding's transpose and the embedding by the transpose of keys + embedding, adds the two products, and
   finally re-reads the [16 × 1024 × 1024] array over the grids' axes (`KernelIdeal.Run.run`: the body's value at an entry,
   the blocks tiling the array, the row-major re-readings). The reference contracts the feature axis directly, its second
   contraction laid out key-side first and transposed; read at an index it is the same pair of sums with the factors of the
   second one exchanged, and multiplication of extended reals is commutative (`ReferenceIdeal.RefLogits.result_eq`). No law
   used needs the inputs finite. The ideal pass rewrote nothing, so `preserves` is `True`. -/
import proofs.«162251_j66151086293478_1_alg».proof.Defs
import proofs.«162251_j66151086293478_1_alg».proof.Proof.Gen.Kernel
import proofs.«162251_j66151086293478_1_alg».proof.Proof.Gen.Kernel.Skeleton
import proofs.«162251_j66151086293478_1_alg».proof.Proof.Gen.Kernel.Launch
import proofs.«162251_j66151086293478_1_alg».proof.Proof.Gen.Kernel.Points
import proofs.«162251_j66151086293478_1_alg».proof.Proof.Gen.Kernel.Frame
import proofs.«162251_j66151086293478_1_alg».proof.Proof.Gen.KernelIdeal
import proofs.«162251_j66151086293478_1_alg».proof.Proof.Gen.KernelIdeal.Skeleton
import proofs.«162251_j66151086293478_1_alg».proof.Proof.Gen.KernelIdeal.Launch
import proofs.«162251_j66151086293478_1_alg».proof.Proof.Gen.KernelIdeal.Points
import proofs.«162251_j66151086293478_1_alg».proof.Proof.Gen.KernelIdeal.Frame
import proofs.«162251_j66151086293478_1_alg».proof.Proof.Gen.ReferenceIdeal
import proofs.«162251_j66151086293478_1_alg».proof.Proof.Gen.Pre_finite_inputs
import proofs.«162251_j66151086293478_1_alg».proof.Proof.Gen.ReferenceIdeal.Run
import proofs.«162251_j66151086293478_1_alg».proof.Proof.Gen.ReferenceIdeal.Read
import proofs.«162251_j66151086293478_1_alg».proof.Proof.KernelRun
import proofs.«162251_j66151086293478_1_alg».proof.Proof.RefLogits
import Idealize.ShloMosaic.Adequacy
import Idealize.ShloMosaic.Init

noncomputable section

namespace Cert.Proof

open Idealize.ShloMosaic Idealize.ShloMosaic.TcCoe Idealize.SL.Sem

/-- The kernel as printed runs and keeps its arguments: the generated frame. -/
theorem frame_kernel : Cert.frame_Kernel := fun m ρ _ => Cert.Kernel.Gen.frame m ρ

/-- So does its idealization. -/
theorem frame_kernel_ideal : Cert.frame_KernelIdeal := fun m ρ _ => Cert.KernelIdeal.Gen.frame m ρ

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the logits of those arguments. -/
theorem algebraic : Cert.algebraic_KernelIdeal_ReferenceIdeal := by
  intro m ρ m' ρ' _ hagree
  refine ⟨fun c => Cert.Logits.logits
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefLogits.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
